-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x2 : Shape := ⟨2, ![16384, 2]⟩
abbrev S10000x512 : Shape := ⟨2, ![10000, 512]⟩
abbrev S_ : Shape := ⟨0, ![]⟩
abbrev S16384x1 : Shape := ⟨2, ![16384, 1]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_
  slices_S16384x2_S16384x1_0_1 : S16384x2.Slices ![0, 1] S16384x1
  bcast_S_S16384x1 : S_.BroadcastsInDim S16384x1 (![] : Fin 0 → Fin S16384x1.rank)
  reducesTo_S16384x1_S_d0_1 : S16384x1.ReducesTo [0, 1] S_

variable [Facts]

def fn_part1 {F : FTy → Type} [FloatOps F] (main_v13 : IVec S_ 1) (main_v16 : IVec S16384x1 1) : IVec S_ 1 :=
  let main_c_5 : IVec S_ 1 := constantI S_ 1 1#1
  let main_v17 : IVec S_ 1 := (fun x v => Host.reduce IntOp.andi x v reducesTo_S16384x1_S_d0_1 h_S_) main_v16 main_c_5
  let main_v18 : IVec S_ 1 := andi main_v13 main_v17
  main_v18

def fn {F : FTy → Type} [FloatOps F] (main_arg0 : FVec F S16384x512 .f32) (main_arg1 : IVec S16384x2 32) (main_arg2 : FVec F S10000x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S10000x512 .f32 := Host.absf main_arg2
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_v9 : IVec S16384x1 32 := (extractStridedSlice S16384x1 ![0, 1] · slices_S16384x2_S16384x1_0_1) main_arg1
  let main_c_2 : IVec S_ 32 := constantI S_ 32 4294957296#32
  let main_v10 : IVec S16384x1 32 := broadcastInDim S16384x1 ![] bcast_S_S16384x1 main_c_2
  let main_v11 : IVec S16384x1 1 := cmpi .sge main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_v14 : IVec S16384x1 32 := (extractStridedSlice S16384x1 ![0, 1] · slices_S16384x2_S16384x1_0_1) main_arg1
  let main_c_4 : IVec S_ 32 := constantI S_ 32 10000#32
  let main_v15 : IVec S16384x1 32 := broadcastInDim S16384x1 ![] bcast_S_S16384x1 main_c_4
  let main_v16 : IVec S16384x1 1 := cmpi .slt main_v14 main_v15
  fn_part1 (F := F) main_v13 main_v16
-- ==== Kernel.lean ====
abbrev S16384x512 : Shape := ⟨2, ![16384, 512]⟩
abbrev S16384x2 : Shape := ⟨2, ![16384, 2]⟩
abbrev S10000x512 : Shape := ⟨2, ![10000, 512]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S8x8x128 : Shape := ⟨3, ![8, 8, 128]⟩
abbrev S2048x512 : Shape := ⟨2, ![2048, 512]⟩
abbrev S1x8x128 : Shape := ⟨3, ![1, 8, 128]⟩
abbrev S2048 : Shape := ⟨1, ![2048]⟩
abbrev S2048x1 : Shape := ⟨2, ![2048, 1]⟩
abbrev S1x1x1 : Shape := ⟨3, ![1, 1, 1]⟩

abbrev nBuf : Space → Nat
  | .hbm => 33
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S16384x2, .i32⟩
  | .hbm, ⟨2, _⟩ => ⟨S10000x512, .f32⟩
  | .hbm, ⟨3, _⟩ => ⟨S16384x1, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x512, .f32⟩
  | .hbm, ⟨24, _⟩ => ⟨S16384x512, .i1⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S8x8x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x8x128, .f32⟩
  | .local _ .vmem, ⟨5, _⟩ => ⟨S1x8x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S16384x2_S16384x1_0_1 : S16384x2.Slices ![0, 1] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x512_0 : S16384.BroadcastsInDim S16384x512 (![0] : Fin 1 → Fin S16384x512.rank)
  bcast_S_S16384x512 : S_.BroadcastsInDim S16384x512 (![] : Fin 0 → Fin S16384x512.rank)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  reducesTo_S8x8x128_S_d0_1_2 : S8x8x128.ReducesTo [0, 1, 2] S_
  gather_S10000x512_S16384x1_S16384x512_1_0_n_n_0_1_1512_wf : GatherDims.WF S10000x512 S16384x1 S16384x512 [1] [0] [] [0] [] 1 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .f32 = 32 ∨ (Rect.block (s := S16384x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S8x8x128.size a
  hwx0_2 : ∀ i : grid0.Coords, EltTy.bits .f32 = 32 ∨ (Rect.block (s := S8x8x128) S1x8x128.size (cc0_transform_2 i) (hinb0_2 i)).WholeWords (EltTy.packing .f32)

variable [Facts₀]

def gather_S10000x512_S16384x1_S16384x512_1_0_n_n_0_1_1512 : GatherDims S10000x512 S16384x1 S16384x512 where
  offsetDims := [1]
  collapsedSliceDims := [0]
  operandBatchingDims := []
  startIndicesBatchingDims := []
  startIndexMap := [0]
  indexVectorDim := 1
  sliceSizes := ![1, 512]
  wf := gather_S10000x512_S16384x1_S16384x512_1_0_n_n_0_1_1512_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x2 : Shape := ⟨2, ![16384, 2]⟩
abbrev S10000x512 : Shape := ⟨2, ![10000, 512]⟩
abbrev S16384x1 : Shape := ⟨2, ![16384, 1]⟩
abbrev S16384 : Shape := ⟨1, ![16384]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x2, .i32⟩
  | .hbm, ⟨2, _⟩ => ⟨S10000x512, .f32⟩
  | .hbm, ⟨3, _⟩ => ⟨S16384x1, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S_, .f32⟩
  | .hbm, ⟨17, _⟩ => ⟨S16384, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_1 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩

abbrev nD : Nat := 1
abbrev τ : Topo := Topo.v7x

variable {F : FTy → Type} [FloatOps F]

class Facts₀ : Prop where
  slices_S16384x2_S16384x1_0_1 : S16384x2.Slices ![0, 1] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  reducesTo_S16384x512_S16384_d1 : S16384x512.ReducesTo [1] S16384
  h_S_ : 0 < S_.numel
  reducesTo_S16384_S_d0 : S16384.ReducesTo [0] S_
  gather_S10000x512_S16384x1_S16384x512_1_0_n_n_0_1_1512_wf : GatherDims.WF S10000x512 S16384x1 S16384x512 [1] [0] [] [0] [] 1 ![1, 512]

variable [Facts₀]

def gather_S10000x512_S16384x1_S16384x512_1_0_n_n_0_1_1512 : GatherDims S10000x512 S16384x1 S16384x512 where
  offsetDims := [1]
  collapsedSliceDims := [0]
  operandBatchingDims := []
  startIndicesBatchingDims := []
  startIndexMap := [0]
  indexVectorDim := 1
  sliceSizes := ![1, 512]
  wf := gather_S10000x512_S16384x1_S16384x512_1_0_n_n_0_1_1512_wf

class Facts : Prop extends Facts₀ where

variable [Facts]
-- ==== Proof.TileShares.lean ====
/-
  The arithmetic that joins the two programs' results, over the extended reals and with no program in sight.

  Write `d i` for the squared distance of row `i` (a sum of 512 squares, any extended real) and
  `clip y = min hi (max lo y)` for the clamp between the two finite bounds.  One side sums `clip (d i)` over all
  16384 rows.  The other side cuts the rows into 8 tiles of 2048 consecutive rows, divides each tile's sum by 1024, writes
  that quotient into each of the 8 · 128 = 1024 cells of the tile's block, and then sums every cell of every block.
  The two totals are equal because a clamped value is always a REAL number, whatever `d i` is (the bounds are finite):
  so a tile's sum `s` is real, and 1024 copies of `s / 1024` add up to `s` by ordinary real arithmetic.
-/
import Idealize.ShloMosaic.PureOps.Ideal
import Idealize.ShloMosaic.PureOps.Ideal.Laws

noncomputable section

namespace Cert.CenterLoss

open Idealize.ShloMosaic

/-- The coercion of the reals into the extended reals passes through a finite sum. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The divisor of a tile's sum: the pattern of the float 1024. -/
theorem ofBits_1024 : Ideal.ofBits .f32 0x44800000#32 = ((1024 : ℝ) : EReal) := by
  simp [Ideal.ofBits, Ideal.ieee, -EReal.coe_mul]; norm_num

/-- The lower clamp bound (the float nearest 1e-12) is a real number. -/
theorem lo_real : ∃ r : ℝ, Ideal.ofBits .f32 0x2B8CBCCC#32 = (r : EReal) := by
  simp only [Ideal.ofBits, Ideal.ieee]
  rw [if_neg (by decide), if_neg (by decide)]
  exact ⟨_, rfl⟩

/-- The upper clamp bound (the float nearest 1e12) is a real number. -/
theorem hi_real : ∃ r : ℝ, Ideal.ofBits .f32 0x5368D4A5#32 = (r : EReal) := by
  simp only [Ideal.ofBits, Ideal.ieee]
  rw [if_neg (by decide), if_neg (by decide)]
  exact ⟨_, rfl⟩

/-- The clamp of a squared distance between the two bounds, in the order both programs apply it: first the
    maximum with the lower bound, then the minimum with the upper one. -/
def clip (y : EReal) : EReal :=
  min (Ideal.ofBits .f32 0x5368D4A5#32) (max (Ideal.ofBits .f32 0x2B8CBCCC#32) y)

/-- A clamped value is a real number, even when the clamped quantity is infinite. -/
theorem clip_real (y : EReal) : ∃ r : ℝ, clip y = (r : EReal) := by
  obtain ⟨a, ha⟩ := lo_real
  obtain ⟨b, hb⟩ := hi_real
  unfold clip
  rw [ha, hb]
  induction y using EReal.rec with
  | bot => exact ⟨min b a, by rw [max_eq_left bot_le]; exact (EReal.coe_strictMono.monotone.map_min).symm⟩
  | top => exact ⟨b, by rw [max_eq_right le_top, min_eq_left le_top]⟩
  | coe y => exact ⟨min b (max a y), by
      rw [EReal.coe_strictMono.monotone.map_min, EReal.coe_strictMono.monotone.map_max]⟩

/-- Row `r` of tile `t`: the tiles are runs of 2048 consecutive rows. -/
def row (t : Fin 8) (r : Fin 2048) : Fin 16384 := ⟨2048 * t.val + r.val, by omega⟩

/-- A sum over all rows, taken tile by tile. -/
theorem sum_rows {M : Type} [AddCommMonoid M] (g : Fin 16384 → M) :
    ∑ i, g i = ∑ t : Fin 8, ∑ r : Fin 2048, g (row t r) := by
  rw [← Fintype.sum_prod_type']
  refine (Fintype.sum_equiv (finProdFinEquiv : Fin 8 × Fin 2048 ≃ Fin 16384) _ _ fun p => ?_).symm
  refine congrArg g (Fin.ext ?_)
  show 2048 * p.1.val + p.2.val = p.2.val + 2048 * p.1.val
  omega

/-- 1024 equal shares of a real total add back up to the total. -/
theorem sum_shares (s : ℝ) :
    ∑ _a : Fin 8, ∑ _b : Fin 128, Ideal.div (s : EReal) (Ideal.ofBits .f32 0x44800000#32) = (s : EReal) := by
  rw [ofBits_1024, Ideal.div_coe (by norm_num : (1024 : ℝ) ≠ 0), ← EReal.coe_mul]
  simp only [← coe_sum]
  refine congrArg _ ?_
  simp only [Finset.sum_const, Finset.card_univ, Fintype.card_fin, nsmul_eq_mul]
  ring

/-- THE LAW.  If every `g i` is real, the sum over the 8 · 8 · 128 cells of the tiles' shares is the sum over the rows. -/
theorem tile_shares (g : Fin 16384 → EReal) (hg : ∀ i, ∃ r : ℝ, g i = (r : EReal)) :
    ∑ t : Fin 8, ∑ _a : Fin 8, ∑ _b : Fin 128,
        Ideal.div (∑ r : Fin 2048, g (row t r)) (Ideal.ofBits .f32 0x44800000#32)
      = ∑ i, g i := by
  choose ρ hρ using hg
  rw [sum_rows g]
  refine Finset.sum_congr rfl fun t _ => ?_
  simp only [hρ, ← coe_sum]
  exact sum_shares _

end Cert.CenterLoss

end
-- ==== Proof.LossSpec.lean ====
/-
  What both programs compute, as functions of two [16384 × 512] arrays `f` (the features) and `g` (for each row, the
  class centre its label selects), with no program in sight.

  `rowTerm f g i` is row `i`'s squared distance `∑ₖ (f i k − g i k)²`, clamped.  `loss f g` is the mean of the row terms:
  their sum divided by the float 16384.  The kernel reaches the same number through an [8 × 8 × 128] array `shares f g`:
  cell `(t, a, b)` holds the sum of tile `t`'s 2048 row terms divided by 1024, the same in all 1024 cells of the tile, and
  the cells' total is the rows' total (`sum_shares_eq`, by the law of the file on tile shares).
-/
import proofs.«412746_j11038065951186_3_alg».proof.Proof.TileShares
import Idealize.ShloMosaic.Lib.ValueIdx
import Idealize.ShloMosaic.Lib.ValueIdxRank1

noncomputable section

namespace Cert.CenterLoss

open Idealize.ShloMosaic Idealize.ShloMosaic.ValueIdx

/-- A sum of 512 squared differences, clamped: what one row of a pair of [n × 512] arrays contributes. -/
def rowClip {n : Nat} (f g : (⟨2, ![n, 512]⟩ : Shape).Idx → EReal) (i : Fin n) : EReal :=
  clip (∑ k : Fin 512, (f (ix2 i k) - g (ix2 i k)) * (f (ix2 i k) - g (ix2 i k)))

/-- Row `i`'s clamped squared distance between the features and the selected centres. -/
abbrev rowTerm (f g : (⟨2, ![16384, 512]⟩ : Shape).Idx → EReal) (i : Fin 16384) : EReal := rowClip f g i

/-- THE RESULT: the mean of the rows' clamped squared distances. -/
def loss (f g : (⟨2, ![16384, 512]⟩ : Shape).Idx → EReal) : EReal :=
  Ideal.div (∑ i : Fin 16384, rowTerm f g i) (Ideal.ofBits .f32 0x46800000#32)

/-- What one [2048 × 512] pair of blocks contributes to every cell of its output block: the sum of its rows'
    clamped squared distances, divided by the 1024 cells. -/
def blockShare (x y : (⟨2, ![2048, 512]⟩ : Shape).Idx → EReal) : EReal :=
  Ideal.div (∑ r : Fin 2048, rowClip x y r) (Ideal.ofBits .f32 0x44800000#32)

/-- Tile `t`'s share: the block share of rows `2048 t … 2048 t + 2047`. -/
def tileShare (f g : (⟨2, ![16384, 512]⟩ : Shape).Idx → EReal) (t : Fin 8) : EReal :=
  Ideal.div (∑ r : Fin 2048, rowTerm f g (row t r)) (Ideal.ofBits .f32 0x44800000#32)

/-- The kernel's intermediate array: every cell of tile `t`'s [8 × 128] block holds the tile's share. -/
def shares (f g : (⟨2, ![16384, 512]⟩ : Shape).Idx → EReal) : (⟨3, ![8, 8, 128]⟩ : Shape).Idx → EReal :=
  fun j => tileShare f g (j 0)

/-- A cell whose first coordinate is `t` holds tile `t`'s share. -/
theorem shares_of_tile (f g : (⟨2, ![16384, 512]⟩ : Shape).Idx → EReal) (i : (⟨3, ![8, 8, 128]⟩ : Shape).Idx) (t : Fin 8)
    (h : (i 0).val = t.val) : shares f g i = tileShare f g t := by
  unfold shares
  exact congrArg (tileShare f g) (Fin.ext h)

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- The cells of the intermediate array add up to the sum of the row terms. -/
theorem sum_shares_eq (f g : (⟨2, ![16384, 512]⟩ : Shape).Idx → EReal) :
    ∑ j, shares f g j = ∑ i : Fin 16384, rowTerm f g i := by
  rw [← tile_shares (rowTerm f g) (fun i => clip_real _)]
  rw [← Equiv.sum_comp (idxEquiv3 (n0 := 8) (n1 := 8) (n2 := 128)).symm (shares f g), Fintype.sum_prod_type]
  refine Finset.sum_congr rfl fun t _ => ?_
  rw [Fintype.sum_prod_type]
  rfl

end Cert.CenterLoss

end
-- ==== Proof.TilePayload.lean ====
/-
  The kernel body's arithmetic at an index.  The body loads a [2048 × 512] block `x0` of features and the matching block
  `x1` of selected centres, forms each row's sum of squared differences, clamps it, adds the 2048 clamped values up,
  divides by 1024 and spreads that one number over its [1 × 8 × 128] output block.  So every cell of the output block
  holds the block share of `x0` and `x1`.
-/
import proofs.«412746_j11038065951186_3_alg».proof.Proof.Gen.KernelIdeal.Skeleton
import proofs.«412746_j11038065951186_3_alg».proof.Proof.LossSpec
import Idealize.ShloMosaic.Lib.ValueIdx
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx Cert.CenterLoss

/-- The one entry of a [1 × 1 × 1] vector, spread over a [1 × 8 × 128] block, is read back at every cell. -/
theorem spread_apply (u : Vec Ideal S1x1x1 .f32) (j : S1x8x128.Idx) :
    broadcastTo S1x8x128 u broadcasts_S1x1x1_S1x8x128 j = u (ix3 0 0 0) :=
  broadcastTo_apply u broadcasts_S1x1x1_S1x8x128 j (ix3 0 0 0) (fun a => by
    match a with
    | ⟨0, _⟩ => rfl
    | ⟨1, _⟩ => rfl
    | ⟨2, _⟩ => rfl)

/-- A [1 × 1] vector seen as [1 × 1 × 1] keeps its one entry. -/
theorem cast_11_111 (u : Vec Ideal S1x1 .f32) :
    shapeCast S1x1x1 u shapeCasts_S1x1_S1x1x1 (ix3 0 0 0) = u (ix2 0 0) :=
  shapeCast_apply u shapeCasts_S1x1_S1x1x1 (ix3 0 0 0) (ix2 0 0) (by decide)

/-- A [1] vector seen as [1 × 1] keeps its one entry. -/
theorem cast_1_11 (u : Vec Ideal S1 .f32) :
    shapeCast S1x1 u shapeCasts_S1_S1x1 (ix2 0 0) = u (ix1 0) :=
  shapeCast_apply u shapeCasts_S1_S1x1 (ix2 0 0) (ix1 0) (by decide)

/-- A [2048] vector seen as a [2048 × 1] column: row `r` of the column is entry `r`. -/
theorem cast_col (u : Vec Ideal S2048 .f32) (r : Fin 2048) :
    shapeCast S2048x1 u shapeCasts_S2048_S2048x1 (ix2 r 0) = u (ix1 r) :=
  shapeCast_apply u shapeCasts_S2048_S2048x1 (ix2 r 0) (ix1 r) (by
    rewrite [Shape.rowMajor_val_one, Shape.rowMajor_val_two]
    show r.val = r.val * 1 + 0
    omega)

/-- The sum down a [2048 × 1] column. -/
theorem col_sum (v : Vec Ideal S2048x1 .f32) :
    multiReduction (F := Ideal) .add [0] S1 v 0x00000000#32 reduces_S2048x1_S1 (.inl rfl) rfl (ix1 0) = ∑ r : Fin 2048, v (ix2 r 0) :=
  (Ideal.multiReduction_add_single v 0x00000000#32 reduces_S2048x1_S1 (.inl rfl) rfl (ix1 0)).trans
    (Finset.sum_congr rfl fun r _ => congrArg v (funext fun a => Fin.ext (by
      match a with
      | ⟨0, _⟩ => rfl
      | ⟨1, _⟩ => rfl)))

/-- The sum along row `r` of a [2048 × 512] block. -/
theorem row_sum (v : Vec Ideal S2048x512 .f32) (r : Fin 2048) :
    multiReduction (F := Ideal) .add [1] S2048 v 0x00000000#32 reduces_S2048x512_S2048 (.inl rfl) rfl (ix1 r) = ∑ k : Fin 512, v (ix2 r k) :=
  (Ideal.multiReduction_add_single v 0x00000000#32 reduces_S2048x512_S2048 (.inl rfl) rfl (ix1 r)).trans
    (Finset.sum_congr rfl fun k _ => congrArg v (funext fun a => Fin.ext (by
      match a with
      | ⟨0, _⟩ => rfl
      | ⟨1, _⟩ => rfl)))

/-- EVERY CELL of the body's output block holds the block share of its two input blocks. -/
theorem pay_apply (x0 x1 : Vec Ideal S2048x512 .f32) (j : S1x8x128.Idx) :
    k0_pay1 (F := Ideal) x0 x1 j = blockShare x0 x1 := by
  unfold k0_pay1
  dsimp only
  refine (spread_apply _ j).trans ?_
  refine (cast_11_111 _).trans ?_
  unfold blockShare
  refine congrArg (Ideal.div · (Ideal.ofBits .f32 0x44800000#32)) ?_
  refine (cast_1_11 _).trans ?_
  refine (col_sum _).trans ?_
  refine Finset.sum_congr rfl fun r _ => ?_
  unfold rowClip clip
  refine congrArg (min (Ideal.ofBits .f32 0x5368D4A5#32)) (congrArg (max (Ideal.ofBits .f32 0x2B8CBCCC#32)) ?_)
  refine (cast_col _ r).trans ?_
  refine (row_sum _ r).trans ?_
  refine Finset.sum_congr rfl fun k _ => ?_
  rw [shapeCast_self]
  rfl

end Cert.KernelIdeal.TileValue

end
-- ==== Proof.TileArray.lean ====
/-
  The array the kernel region leaves behind.  Grid point `t` (of 8) reads rows `2048 t … 2048 t + 2047` of the features
  and of the selected centres, and writes block `t` of the [8 × 8 × 128] output: 1024 copies of tile `t`'s share.  The 8
  blocks tile the output array, so after the region it is `shares` of the two input arrays as the region found them.
-/
import proofs.«412746_j11038065951186_3_alg».proof.Proof.Gen.KernelIdeal.Frame
import proofs.«412746_j11038065951186_3_alg».proof.Proof.TilePayload
import proofs.«412746_j11038065951186_3_alg».proof.Proof.LossSpec
import Idealize.ShloMosaic.Lib.Pipeline.Value

set_option maxRecDepth 16384

noncomputable section

namespace Cert.KernelIdeal.TileValue

open Cert.KernelIdeal Cert.KernelIdeal.Gen Idealize.ShloMosaic Idealize.ShloMosaic.TcCoe Idealize.ShloMosaic.ValueIdx
open Idealize.SL.Sem Cert.CenterLoss
open Idealize.ShloMosaic.Pipeline (Dat Cfg Window)

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The features as the region finds them. -/
abbrev feat (c : Dev nD) : Vec Ideal S16384x512 .f32 := V m c main_arg0
/-- The selected centres as the region finds them. -/
abbrev sel (c : Dev nD) : Vec Ideal S16384x512 .f32 := V m c main_v2
/-- The block of features point `t` loads. -/
abbrev featBlk (c : Dev nD) (t : Fin cfg0.N) : Vec Ideal S2048x512 .f32 := iblk m c 0 t
/-- The block of selected centres point `t` loads. -/
abbrev selBlk (c : Dev nD) (t : Fin cfg0.N) : Vec Ideal S2048x512 .f32 := iblk m c 1 t

/-- A grid point as a tile number. -/
def tile (t : Fin cfg0.N) : Fin 8 := ⟨t.val, by have h := t.isLt; have e : cfg0.N = 8 := N_0; omega⟩

/-- The printed index maps, decided over the grid: at point `t` every window is at block `t` along its first axis
    and at block 0 along the others. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Row `r`, column `k` of the feature block of point `t` is row `2048 t + r`, column `k` of the features. -/
theorem featBlk_apply (c : Dev nD) (t : Fin cfg0.N) (r : Fin 2048) (k : Fin 512) :
    featBlk m c t (ix2 r k) = feat m c (ix2 (row (tile t) r) k) := by
  obtain ⟨e0, e1, -, -, -, -, -⟩ := idx_facts t
  show V m c main_arg0 (((cfg0.win 0).blk t).view.emb (ix2 r k)) = V m c main_arg0 (ix2 (row (tile t) r) k)
  refine congrArg (V m c main_arg0) (funext fun a => Fin.ext ?_)
  match a with
  | ⟨0, _⟩ => show win0_0.index t (0 : Fin 2) * 2048 + 1 * r.val = 2048 * t.val + r.val; omega
  | ⟨1, _⟩ => show win0_0.index t (1 : Fin 2) * 512 + 1 * k.val = k.val; omega

/-- Likewise for the block of selected centres. -/
theorem selBlk_apply (c : Dev nD) (t : Fin cfg0.N) (r : Fin 2048) (k : Fin 512) :
    selBlk m c t (ix2 r k) = sel m c (ix2 (row (tile t) r) k) := by
  obtain ⟨-, -, e0, e1, -, -, -⟩ := idx_facts t
  show V m c main_v2 (((cfg0.win 1).blk t).view.emb (ix2 r k)) = V m c main_v2 (ix2 (row (tile t) r) k)
  refine congrArg (V m c main_v2) (funext fun a => Fin.ext ?_)
  match a with
  | ⟨0, _⟩ => show win0_1.index t (0 : Fin 2) * 2048 + 1 * r.val = 2048 * t.val + r.val; omega
  | ⟨1, _⟩ => show win0_1.index t (1 : Fin 2) * 512 + 1 * k.val = k.val; omega

/-- The block share of point `t`'s two blocks is tile `t`'s share of the two arrays. -/
theorem blockShare_eq (c : Dev nD) (t : Fin cfg0.N) :
    blockShare (featBlk m c t) (selBlk m c t) = tileShare (feat m c) (sel m c) (tile t) := by
  unfold blockShare tileShare
  refine congrArg (Ideal.div · (Ideal.ofBits .f32 0x44800000#32)) ?_
  refine Finset.sum_congr rfl fun r _ => ?_
  unfold rowTerm rowClip
  refine congrArg clip (Finset.sum_congr rfl fun k _ => ?_)
  rw [featBlk_apply m c t r k, selBlk_apply m c t r k]

/-- WHAT POINT `t` WRITES BACK is block `t` of `shares` of the two arrays as the region finds them. -/
theorem flushed_eq (c : Dev nD) (t : Fin cfg0.N) :
    (dats m 0 c).flushed 2 t = ((cfg0.win 2).blk t).view.read (Elt Ideal) (shares (feat m c) (sel m c)) := by
  show (cfg0.win 2).cut (grid0.coords t) ((dats m 0 c).after 2 t) = _
  rw [after0_2]
  unfold out0_2
  rw [View.canon_unit_zero zero3]
  simp only [View.ld_unit_zero (S := S2048x512) zero2]
  obtain ⟨-, -, -, -, e0, -, -⟩ := idx_facts t
  funext j
  show k0_pay1 (featBlk m c t) (selBlk m c t) j = shares (feat m c) (sel m c) (((cfg0.win 2).blk t).view.emb j)
  refine (pay_apply (featBlk m c t) (selBlk m c t) j).trans ?_
  refine (blockShare_eq m c t).trans ?_
  have hj0 : (j 0).val < 1 := (j 0).isLt
  refine (shares_of_tile (feat m c) (sel m c) _ (tile t) ?_).symm
  show win0_2.index t (0 : Fin 3) * 1 + 1 * (j 0).val = t.val
  omega

/-- An index of the output array is in point `t`'s block iff each coordinate is in the block's range on its axis. -/
theorem mem_blk (t : Fin cfg0.N) (i : S8x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v3).slice (win0_2.rect t)).set ↔ _
  rw [View.set_slice_whole, Rect.mem_set_unit]
  exact Iff.rfl

/-- Every index of the output array is in the block of the point its first coordinate names. -/
theorem covered (i : S8x8x128.Idx) :
    ∃ t : Fin cfg0.N, (cfg0.win 2).flush t = true ∧ i ∈ ((cfg0.win 2).blk t).view.set := by
  have hi0 : (i 0).val < 8 := (i 0).isLt
  have hi1 : (i 1).val < 8 := (i 1).isLt
  have hi2 : (i 2).val < 128 := (i 2).isLt
  have hN : cfg0.N = 8 := N_0
  refine ⟨⟨(i 0).val, by omega⟩, flush0_2 _, ?_⟩
  obtain ⟨-, -, -, -, e0, e1, e2⟩ := idx_facts ⟨(i 0).val, by omega⟩
  rw [mem_blk]
  intro a
  match a with
  | ⟨0, _⟩ => show win0_2.index _ (0 : Fin 3) * 1 ≤ (i 0).val ∧ (i 0).val < win0_2.index _ (0 : Fin 3) * 1 + 1; simp only [] at e0; omega
  | ⟨1, _⟩ => show win0_2.index _ (1 : Fin 3) * 8 ≤ (i 1).val ∧ (i 1).val < win0_2.index _ (1 : Fin 3) * 8 + 8; omega
  | ⟨2, _⟩ => show win0_2.index _ (2 : Fin 3) * 128 ≤ (i 2).val ∧ (i 2).val < win0_2.index _ (2 : Fin 3) * 128 + 128; omega

/-- THE ARRAY after the region: `shares` of the features and the selected centres as the region finds them. -/
theorem final (c : Dev nD) : (dats m 0 c).arrAt 2 cfg0.N = shares (feat m c) (sel m c) :=
  (dats m 0 c).arrAt_eq_of_cover 2 (shares (feat m c) (sel m c)) (fun t _ => flushed_eq m c t) covered

end Cert.KernelIdeal.TileValue

end
-- ==== Proof.LabelWords.lean ====
/-
  Facts about single 32-bit label words and about a mask of ones; no program in sight.

  A class label `w` indexes a table of 10000 rows the way Python does: a negative label counts from the end, so the
  row read is `w + 10000` when `w < 0` and `w` otherwise.  When `-10000 ≤ w < 10000` (as signed words) that row number
  lies in `[0, 9999]`: the test "is the wrapped index inside the table" then answers yes on every row.
-/
import Idealize.ShloMosaic.PureOps.Reduce
import Idealize.ShloMosaic.Lib.ReduceAll
import Idealize.ShloMosaic.Lib.ValueIdx
import Idealize.ShloMosaic.Lib.StableHlo.Predicate

namespace Cert.CenterLoss

open Idealize.ShloMosaic Idealize.ShloMosaic.StableHlo.Predicate

/-- The label's row number: Python's wrap of a negative index. -/
def wrap (w : BitVec 32) : BitVec 32 :=
  Scalar.select (IntOp.cmpi .slt w 0#32) (IntOp.addi w 10000#32) w

/-- A label in `[-10000, 10000)` wraps to a row number in `[0, 9999]`: both range tests on it answer 1. -/
theorem wrap_in_table (w : BitVec 32) (h1 : IntOp.cmpi .sge w 4294957296#32 = 1#1) (h2 : IntOp.cmpi .slt w 10000#32 = 1#1) :
    IntOp.andi (IntOp.cmpi .sge (wrap w) 0#32) (IntOp.cmpi .sle (wrap w) 9999#32) = 1#1 := by
  have e1 : (4294957296#32 : BitVec 32).toInt = -10000 := by decide
  have e2 : (10000#32 : BitVec 32).toInt = 10000 := by decide
  have e3 : (0#32 : BitVec 32).toInt = 0 := by decide
  have e4 : (9999#32 : BitVec 32).toInt = 9999 := by decide
  simp only [IntOp.cmpi, ofBool_eq_one_iff, BitVec.sle, BitVec.slt, decide_eq_true_eq, e1, e2] at h1 h2
  have hw := BitVec.toInt_lt (x := w)
  have hw' := BitVec.le_toInt (x := w)
  rw [IntOp.andi_eq_one]
  unfold wrap
  by_cases hneg : w.toInt < 0
  · have hc : IntOp.cmpi .slt w 0#32 = 1#1 := by
      simp only [IntOp.cmpi, ofBool_eq_one_iff, BitVec.slt, decide_eq_true_eq, e3]; exact hneg
    rw [hc, ValueIdx.select_one]
    have hs : (IntOp.addi w 10000#32).toInt = w.toInt + 10000 := by
      unfold IntOp.addi
      rw [BitVec.toInt_add, e2, Int.bmod_def]
      split <;> omega
    simp only [IntOp.cmpi, ofBool_eq_one_iff, BitVec.sle, decide_eq_true_eq, e3, e4, hs]
    omega
  · have hc : IntOp.cmpi .slt w 0#32 = 0#1 := by
      apply ValueIdx.eq_zero_of_ne_one
      simp only [IntOp.cmpi, ofBool_eq_one_iff, BitVec.slt, decide_eq_true_eq, e3]; exact hneg
    rw [hc, ValueIdx.select_zero]
    simp only [IntOp.cmpi, ofBool_eq_one_iff, BitVec.sle, decide_eq_true_eq, e3, e4]
    omega

/-- A left fold by `and` that starts at 1 and meets only 1s ends at 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- An `and`-reduction, from the constant 1, of a mask whose every entry is 1 is 1 at every result index. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_ones x hx _

end Cert.CenterLoss
-- ==== Proof.SelectedCentres.lean ====
/-
  What the kernel region finds in its second operand: for each sample, the centre its label selects.

  The host code before the region takes the class column of the labels, wraps a negative label the way Python does
  (`w + 10000` when `w < 0`), gathers that row of the table of centres — the gather clamps its start index into the
  table — and then overwrites with a NaN filler every row whose wrapped index fell outside `[0, 9999]`.  When every
  label lies in `[-10000, 10000)` no wrapped index falls outside, the test answers 1 on every row, and the filler is
  never chosen: the operand is exactly the gathered rows.
-/
import proofs.«412746_j11038065951186_3_alg».proof.Proof.Gen.KernelIdeal.Frame
import proofs.«412746_j11038065951186_3_alg».proof.Proof.LabelWords
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Selected

open Cert.KernelIdeal Cert.KernelIdeal.Gen Idealize.ShloMosaic Idealize.ShloMosaic.TcCoe Idealize.ShloMosaic.ValueIdx
open Idealize.SL.Sem Idealize.ShloMosaic.StableHlo Cert.CenterLoss

/-- The class column of the labels (column 1 of 2). -/
def classCol (L : IVec S16384x2 32) : IVec S16384x1 32 :=
  extractStridedSlice S16384x1 ![0, 1] L slices_S16384x2_S16384x1_0_1

/-- The class column as a flat vector. -/
def cls (L : IVec S16384x2 32) : IVec S16384 32 := shapeCast S16384 (classCol L) shapeCasts_S16384x1_S16384

/-- The row of the table each sample reads: its label, wrapped; as the column of start indices the gather takes. -/
def rowIdx (L : IVec S16384x2 32) : IVec S16384x1 32 :=
  broadcastInDim S16384x1 ![0] bcast_S16384_S16384x1_0
    (select (cmpi .slt (cls L) (broadcastInDim S16384 ![] bcast_S_S16384 (constantI S_ 32 0#32)))
      (addi (cls L) (broadcastInDim S16384 ![] bcast_S_S16384 (constantI S_ 32 10000#32))) (cls L))

/-- Per sample: does the wrapped index lie inside the table? -/
def inTable (L : IVec S16384x2 32) : IVec S16384 1 :=
  Host.reduce IntOp.andi
    (andi (cmpi .sge (rowIdx L) (broadcastInDim S16384x1 ![] bcast_S_S16384x1 (constantI S_ 32 0#32)))
      (cmpi .sle (rowIdx L) (broadcastInDim S16384x1 ![0, 1] bcast_S1x1_S16384x1_0_1
        (broadcastInDim S1x1 ![1] bcast_S1_S1x1_1 (constantI S1 32 9999#32)))))
    (constantI S_ 1 1#1) reducesTo_S16384x1_S16384_d1 h_S_

/-- The gathered rows: for each sample the table's row at its (clamped) wrapped index. -/
def gathered (L : IVec S16384x2 32) (C : FVec Ideal S10000x512 .f32) : FVec Ideal S16384x512 .f32 :=
  Host.gather gather_S10000x512_S16384x1_S16384x512_1_0_n_n_0_1_1512 C (rowIdx L)

/-- What the host code hands the region: the gathered rows, with the filler where the index fell outside the table. -/
def taken (L : IVec S16384x2 32) (C : FVec Ideal S10000x512 .f32) : FVec Ideal S16384x512 .f32 :=
  select (broadcastInDim S16384x512 ![0] bcast_S16384_S16384x512_0 (inTable L)) (gathered L C)
    (broadcastInDim S16384x512 ![] bcast_S_S16384x512 (constant (F := Ideal) S_ .f32 0x7FC00000#32))

variable (m : (ℓ : Loc nD τ sig) → Buf (Elt Ideal) ℓ)

set_option maxHeartbeats 4000000 in
set_option maxRecDepth 262144 in
/-- The host operations before the region, composed: any array equal to `taken` of the labels and the table as
    launched is what the region finds in its second operand. -/
theorem V_main_v2_of (c : Dev nD) (X : S16384x512.Idx → EReal)
    (hX : X = taken (m ((c : Thread nD τ).loc main_arg1)) (m ((c : Thread nD τ).loc main_arg2))) :
    (V m c main_v2 : S16384x512.Idx → EReal) = X := by
  dsimp only [V, V0]
  simp only [hostOps0, hostOps0_1, List.flatten_cons, List.flatten_nil, List.append_nil, List.cons_append, List.nil_append]
  after_results
  exact hX.symm

/-- The region's second operand is `taken` of the labels and the table as launched. -/
theorem V_main_v2 (c : Dev nD) :
    (V m c main_v2 : S16384x512.Idx → EReal)
      = taken (m ((c : Thread nD τ).loc main_arg1)) (m ((c : Thread nD τ).loc main_arg2)) :=
  V_main_v2_of m c _ rfl

/-- Labels in range, entry by entry of the class column. -/
def InRange (L : IVec S16384x2 32) : Prop :=
  ∀ i : S16384x1.Idx, IntOp.cmpi .sge (classCol L i) 4294957296#32 = 1#1 ∧ IntOp.cmpi .slt (classCol L i) 10000#32 = 1#1

/-- With the labels in range, every wrapped index passes both range tests. -/
theorem rowIdx_in_table (L : IVec S16384x2 32) (hL : InRange L) (i : S16384x1.Idx) :
    IntOp.andi (IntOp.cmpi .sge (rowIdx L i) 0#32) (IntOp.cmpi .sle (rowIdx L i) 9999#32) = 1#1 := by
  unfold rowIdx broadcastInDim
  exact wrap_in_table _ (hL _).1 (hL _).2

/-- So the test answers 1 for every sample, -/
theorem inTable_one (L : IVec S16384x2 32) (hL : InRange L) (j : S16384.Idx) : inTable L j = 1#1 :=
  reduce_andi_ones _ _ _ _ (fun _ => rfl) (fun i => rowIdx_in_table L hL i) j

/-- and the filler is never chosen: the region's operand is the gathered rows. -/
theorem taken_eq_gathered (L : IVec S16384x2 32) (C : FVec Ideal S10000x512 .f32) (hL : InRange L) :
    taken L C = gathered L C := by
  funext i
  unfold taken
  rw [select_apply]
  have hm : broadcastInDim S16384x512 ![0] bcast_S16384_S16384x512_0 (inTable L) i = 1#1 := by
    unfold broadcastInDim
    exact inTable_one L hL _
  rw [hm, select_one]

end Cert.KernelIdeal.Selected

end
-- ==== Proof.KernelLoss.lean ====
/-
  The kernel program's result.  After the region the host code adds up every cell of the [8 × 8 × 128] array and divides
  the total by 16384.  The array is `shares` of the features and the selected centres, whose cells add up to the sum of
  the rows' clamped squared distances; so the result is `loss` of the features and the selected centres — and, the
  labels being in range, the selected centres are the gathered rows.
-/
import proofs.«412746_j11038065951186_3_alg».proof.Proof.Gen.KernelIdeal.Frame
import proofs.«412746_j11038065951186_3_alg».proof.Proof.TileArray
import proofs.«412746_j11038065951186_3_alg».proof.Proof.SelectedCentres
import proofs.«412746_j11038065951186_3_alg».proof.Proof.LossSpec
import Idealize.ShloMosaic.Lib.StableHlo.Run
import Idealize.ShloMosaic.Lib.Pipeline.Value
import Idealize.ShloMosaic.PureOps.Ideal.Laws

set_option maxRecDepth 16384

noncomputable section

namespace Cert.KernelIdeal.KernelLoss

open Cert.KernelIdeal Cert.KernelIdeal.Gen Idealize.ShloMosaic Idealize.ShloMosaic.TcCoe Idealize.ShloMosaic.ValueIdx
open Idealize.SL.Sem Idealize.ShloMosaic.StableHlo Cert.CenterLoss
open Cert.KernelIdeal.TileValue Cert.KernelIdeal.Selected

/-- The host's sum over every axis of the [8 × 8 × 128] array, from the zero constant, is the plain total. -/
theorem total_apply (A : FVec Ideal S8x8x128 .f32) (i : S_.Idx) :
    Host.reduceAdd (F := Ideal) A (constant (F := Ideal) S_ .f32 0x00000000#32) reducesTo_S8x8x128_S_d0_1_2 h_S_ i
      = ∑ j : S8x8x128.Idx, A j := by
  simp only [Host.reduceAdd, Ideal.hostReduceAdd_def]
  rw [Ideal.hostReduceAdd_total reducesTo_S8x8x128_S_d0_1_2 (fun b => b.elim0) A _ i]
  show Ideal.ofBits .f32 0x00000000#32 + _ = _
  rw [Ideal.ofBits_zero_f32, zero_add]

/-- The lines after the region, applied to an array that is `shares f g`, give `loss f g`. -/
theorem tail_value (A : FVec Ideal S8x8x128 .f32) (f g : (⟨2, ![16384, 512]⟩ : Shape).Idx → EReal) (hA : A = shares f g) :
    Host.divf (F := Ideal)
        (Host.reduceAdd (F := Ideal) A (constant (F := Ideal) S_ .f32 0x00000000#32) reducesTo_S8x8x128_S_d0_1_2 h_S_)
        (constant (F := Ideal) S_ .f32 0x46800000#32)
      = fun _ => loss f g := by
  subst hA
  funext i
  show Ideal.div (Host.reduceAdd (F := Ideal) (shares f g) (constant (F := Ideal) S_ .f32 0x00000000#32) reducesTo_S8x8x128_S_d0_1_2 h_S_ i)
    (Ideal.ofBits .f32 0x46800000#32) = loss f g
  rw [total_apply, sum_shares_eq]
  rfl

variable (m : (ℓ : Loc nD τ sig) → Buf (Elt Ideal) ℓ) (ρ : Dev nD → PrngReg)

/-- What the run leaves in the result buffer, over the arrays as the region found them. -/
theorem tail_eq (c : Dev nD) :
    (Pipeline.afterTail₀ cfgs (dats m) 0 (V0 m) [hostOps1] c main_v5 : S_.Idx → EReal)
      = fun _ => loss (feat m c) (sel m c) := by
  unfold Pipeline.afterTail₀
  show StableHlo.after hostOps1 _ (Proc.devRef .tc main_v5) = _
  after_results
  exact tail_value _ _ _ ((Pipeline.withArrays_arr spec0 launch0.win.arr_inj c _ _ 2).trans (final m c))

/-- THE KERNEL'S RUN, read: with the labels in range, every weakly fair execution terminates with the result at the
    mean clamped squared distance of the features from the gathered centres, and the arguments unchanged. -/
theorem run (hL : ∀ c : Dev nD, InRange (m ((c.tc : Thread nD τ).loc main_arg1))) :
    θ_run defs (onTc (τ := τ) (main (F := Ideal))) ⟨m, fun _ => 0, ρ⟩ fun r => ∀ c : Dev nD,
      r.2.mem ((c.tc : Thread nD τ).loc main_v5)
          = (fun _ => loss (m ((c.tc : Thread nD τ).loc main_arg0))
              (gathered (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v5 (Pipeline.mem_restRefs_of main_v5 (by decide) (by decide))).trans ((tail_eq m c).trans (by
          show (fun _ => loss (V m c main_arg0) (V m c main_v2)) = _
          rw [V_main_arg0 m c, V_main_v2 m c, taken_eq_gathered _ _ (hL c)])),
        ((h c).1 0).trans ((((dats m) 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.KernelLoss

end
-- ==== Proof.RefLoss.lean ====
/-
  The reference program's result is `loss` of the features and the gathered centres.  Its stages are read one at a
  time through the generated read-at-an-index lemmas: the quotient by 16384, the total over the 16384 rows, the clamp
  (maximum with the lower bound, then minimum with the upper one), the sum along each row, the product and the
  difference; the gather stays as it is, a function of the labels and the table.
-/
import proofs.«412746_j11038065951186_3_alg».proof.Proof.Gen.ReferenceIdeal.Read
import proofs.«412746_j11038065951186_3_alg».proof.Proof.LossSpec
import Idealize.ShloMosaic.Lib.ValueIdx
import Idealize.ShloMosaic.Lib.ValueIdxRank1

noncomputable section

namespace Cert.ReferenceIdeal.RefLoss

open Cert.ReferenceIdeal Cert.ReferenceIdeal.Gen Cert.ReferenceIdeal.Read Idealize.ShloMosaic Idealize.ShloMosaic.ValueIdx
open Cert.CenterLoss

/-- Row `i` of the clamped stage is the row term of the features and the gathered centres. -/
theorem clamped_apply (x0 : (⟨S16384x512, .f32⟩ : BufTy).Contents (Elt Ideal)) (x1 : (⟨S16384x2, .i32⟩ : BufTy).Contents (Elt Ideal))
    (x2 : (⟨S10000x512, .f32⟩ : BufTy).Contents (Elt Ideal)) (i : Fin 16384) :
    val_main_v12 (F := Ideal) x0 x1 x2 (ix1 i) = rowTerm x0 (val_main_v8 (F := Ideal) x1 x2) i := by
  rw [val_main_v12_apply, val_main_call0_v4_apply, val_main_call0_v3_apply, val_main_cst_2_apply,
    val_main_call0_v2_apply, val_main_call0_v1_apply, val_main_call0_v0_apply, val_main_cst_1_apply,
    val_main_v11_apply, val_main_cst_apply]
  simp only [Ideal.minimumf_def, Ideal.maximumf_def, Ideal.ofBits_def, Ideal.ofBits_zero_f32, zero_add]
  unfold rowTerm rowClip clip
  refine congrArg (min (Ideal.ofBits .f32 0x5368D4A5#32)) (congrArg (max (Ideal.ofBits .f32 0x2B8CBCCC#32)) ?_)
  refine Finset.sum_congr rfl fun k _ => ?_
  rw [val_main_v10_apply, val_main_v9_apply]
  have e : idx_main_v11 (ix1 i) k = ix2 i k := funext fun a => Fin.ext (by
    match a with
    | ⟨0, _⟩ => rfl
    | ⟨1, _⟩ => rfl)
  rw [e]
  rfl

/-- THE REFERENCE'S RESULT is the mean clamped squared distance of the features from the gathered centres. -/
theorem result_eq (x0 : (⟨S16384x512, .f32⟩ : BufTy).Contents (Elt Ideal)) (x1 : (⟨S16384x2, .i32⟩ : BufTy).Contents (Elt Ideal))
    (x2 : (⟨S10000x512, .f32⟩ : BufTy).Contents (Elt Ideal)) :
    val_main_v14 (F := Ideal) x0 x1 x2 = fun _ => loss x0 (val_main_v8 (F := Ideal) x1 x2) := by
  funext i
  rw [val_main_v14_apply, val_main_v13_apply, val_main_cst_3_apply, val_main_cst_4_apply]
  simp only [Ideal.hostDivf_def, Ideal.ofBits_def, Ideal.ofBits_zero_f32, zero_add]
  unfold loss
  refine congrArg (Ideal.div · (Ideal.ofBits .f32 0x46800000#32)) ?_
  rw [← Equiv.sum_comp (idxEquiv1 (n := 16384)).symm]
  exact Finset.sum_congr rfl fun i _ => clamped_apply x0 x1 x2 i

end Cert.ReferenceIdeal.RefLoss

end
-- ==== Proof.LabelRange.lean ====
/-
  What the precondition says about the labels.  The precondition is a conjunction of four "all entries" tests; the
  last two are about the second column of the labels (the class of each sample): every entry is at least -10000, and
  every entry is below 10000, as signed words.  Read back entry by entry.
-/
import proofs.«412746_j11038065951186_3_alg».proof.Pre_finite_inputs
import proofs.«412746_j11038065951186_3_alg».proof.Proof.Gen.Pre_finite_inputs
import Idealize.ShloMosaic.Lib.ReduceAll
import Idealize.ShloMosaic.Lib.ValueIdx

noncomputable section

namespace Cert.Pre_finite_inputs.LabelRange

open Cert.Pre_finite_inputs Cert.Pre_finite_inputs.Facts Idealize.ShloMosaic

/-- The scalar shape has one index. -/
instance : Subsingleton S_.Idx := ⟨fun _ _ => funext fun d => d.elim0⟩

/-- Under the precondition every class label lies in `[-10000, 10000)`: both range tests answer 1 at every row. -/
theorem labels_in_range {F : FTy → Type} [FloatOps F] (x0 : FVec F S16384x512 .f32) (L : IVec S16384x2 32)
    (x2 : FVec F S10000x512 .f32) (h : fn (F := F) x0 L x2 = fun _ => 1#1) (i : S16384x1.Idx) :
    IntOp.cmpi .sge (extractStridedSlice S16384x1 ![0, 1] L slices_S16384x2_S16384x1_0_1 i) 4294957296#32 = 1#1
      ∧ IntOp.cmpi .slt (extractStridedSlice S16384x1 ![0, 1] L slices_S16384x2_S16384x1_0_1 i) 10000#32 = 1#1 := by
  have h0 := congrFun h ValueIdx.ix0
  dsimp only [fn, fn_part1] at h0
  obtain ⟨h123, hD⟩ := IntOp.andi_eq_one.1 h0
  obtain ⟨_, hC⟩ := IntOp.andi_eq_one.1 h123
  exact ⟨Host.reduce_andi_all _ _ _ _ _ hC i, Host.reduce_andi_all _ _ _ _ _ hD i⟩

end Cert.Pre_finite_inputs.LabelRange

end
-- ==== Proof.lean ====
/-
  The centre loss: for each of 16384 samples, the squared distance `∑ₖ (f i k − c i k)²` of its 512 features from the
  class centre its label selects, clamped between two finite bounds, and the mean of these over the samples.

  The reference gathers the selected centres, clamps each row's squared distance, sums the rows and divides by 16384.
  The kernel program gathers the same rows on the host (overwriting a row with a NaN filler when its wrapped label
  falls outside the table of 10000 centres), and a grid of 8 points each turns 2048 rows into one number — the sum of
  the rows' clamped distances divided by 1024 — written to all 8 · 128 cells of its output block; the host then sums
  all cells and divides by 16384.

  Under the precondition every label lies in `[-10000, 10000)`, which is where the reference's own indexing stays
  inside the table: there the filler is never chosen, so both programs clamp the same row sums.  A clamped value is a
  real number whatever the row sum is, so a tile's sum `s` is real and its 1024 cells `s / 1024` add back up to `s`:
  the kernel's grand total is the reference's, and so is the quotient by 16384.  The ideal pass rewrote nothing in the
  kernel, and the three programs run to the end by their generated frames and the reference's generated run.
-/
import proofs.«412746_j11038065951186_3_alg».proof.Defs
import proofs.«412746_j11038065951186_3_alg».proof.Proof.Gen.Kernel
import proofs.«412746_j11038065951186_3_alg».proof.Proof.Gen.Kernel.Skeleton
import proofs.«412746_j11038065951186_3_alg».proof.Proof.Gen.Kernel.Launch
import proofs.«412746_j11038065951186_3_alg».proof.Proof.Gen.Kernel.Points
import proofs.«412746_j11038065951186_3_alg».proof.Proof.Gen.Kernel.Frame
import proofs.«412746_j11038065951186_3_alg».proof.Proof.Gen.KernelIdeal
import proofs.«412746_j11038065951186_3_alg».proof.Proof.Gen.KernelIdeal.Skeleton
import proofs.«412746_j11038065951186_3_alg».proof.Proof.Gen.KernelIdeal.Launch
import proofs.«412746_j11038065951186_3_alg».proof.Proof.Gen.KernelIdeal.Points
import proofs.«412746_j11038065951186_3_alg».proof.Proof.Gen.KernelIdeal.Frame
import proofs.«412746_j11038065951186_3_alg».proof.Proof.Gen.ReferenceIdeal
import proofs.«412746_j11038065951186_3_alg».proof.Proof.Gen.Pre_finite_inputs
import proofs.«412746_j11038065951186_3_alg».proof.Proof.Gen.ReferenceIdeal.Run
import proofs.«412746_j11038065951186_3_alg».proof.Proof.Gen.ReferenceIdeal.Read
import proofs.«412746_j11038065951186_3_alg».proof.Proof.KernelLoss
import proofs.«412746_j11038065951186_3_alg».proof.Proof.RefLoss
import proofs.«412746_j11038065951186_3_alg».proof.Proof.LabelRange
import Idealize.ShloMosaic.Adequacy
import Idealize.ShloMosaic.Init

noncomputable section

namespace Cert.Proof

open Idealize.ShloMosaic Idealize.SL.Sem

/-- The kernel as printed runs to the end with its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition the class labels lie in `[-10000, 10000)` on every device. -/
theorem labels_in_range (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Selected.InRange (m ((c.tc : Thread Cert.KernelIdeal.nD Cert.KernelIdeal.τ).loc Cert.KernelIdeal.main_arg1)) :=
  fun i => Cert.Pre_finite_inputs.LabelRange.labels_in_range _ _ _ (hpre c) i

/-- Both idealized programs end at the mean clamped squared distance of the features from the gathered centres. -/
theorem algebraic : Cert.algebraic_KernelIdeal_ReferenceIdeal := by
  intro m ρ m' ρ' hpre hagree
  refine ⟨fun c => fun _ => Cert.CenterLoss.loss
      (m ((c.tc : Thread Cert.KernelIdeal.nD Cert.KernelIdeal.τ).loc Cert.KernelIdeal.main_arg0))
      (Cert.KernelIdeal.Selected.gathered
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))),
    Cert.KernelIdeal.KernelLoss.run m ρ (labels_in_range m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefLoss.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
